-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4096x128 .f32) (main_arg1 : FVec F S4096x4096 .f32) (main_arg2 : FVec F S128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S4096x128 : Shape := ⟨2, ![4096, 128]⟩
abbrev S4096x4096 : Shape := ⟨2, ![4096, 4096]⟩
abbrev S128x128 : Shape := ⟨2, ![128, 128]⟩
abbrev S512x4096 : Shape := ⟨2, ![512, 4096]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S4096x128, .f32⟩
  | .local _ .vmem, ⟨0, _⟩ => ⟨S4096x128, .f32⟩
  | .local _ .vmem, ⟨1, _⟩ => ⟨S128x128, .f32⟩
  | .local _ .vmem, ⟨2, _⟩ => ⟨S512x4096, .f32⟩
  | .local _ .vmem, ⟨3, _⟩ => ⟨S512x4096, .f32⟩
  | .local _ .vmem, ⟨4, _⟩ => ⟨S512x128, .f32⟩
  | .local _ .vmem, ⟨5, _⟩ => ⟨S512x128, .f32⟩
  | .local _ .vmem, ⟨6, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S4096x128_S4096x128 : S4096x128.ShapeCasts S4096x128
  inb_S512x4096_S512x4096_0_0 : ∀ a, (![0, 0] : Fin 2 → Nat) a + S512x4096.size a ≤ S512x4096.size a
  h_S512x4096 : 0 < S512x4096.numel
  natLt_1_32 : 1 < 32
  inb_S512x128_S512x128_0_0 : ∀ a, (![0, 0] : Fin 2 → Nat) a + S512x128.size a ≤ S512x128.size a
  h_S512x128 : 0 < S512x128.numel
  dot_S4096x128_S128x128_S4096x128_1_0_0_1_n_n_wf : DotDims.WF S4096x128 S128x128 S4096x128 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S4096x128, .f32⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S4096x4096, .f32⟩
  | .hbm, ⟨8, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.Pieces.lean ====
/-
  What one run of the kernel body leaves behind, read back as values.

  At the grid's first point the body computes the projection x · w of the two whole input blocks, stores it
  whole into the carried scratch, reads it back, and stores the masked product of the adjacency block with
  it into the output block. At every later point the scratch is only read: the output block is the masked
  product of that point's adjacency block with whatever the scratch held on entry, and the scratch is left
  as it was.
-/
import proofs.«110369_g36532991820137_cont_8to1_b_609_12_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Spmm

open Cert.KernelIdeal Cert.KernelIdeal.Gen

variable {F : FTy → Type} [FloatOps F]

theorem hz : (![0, 0] : Fin 2 → Nat) = fun _ => 0 := funext fun a => by fin_cases a <;> rfl

/-- First point: the scratch ends at the projection of the two whole input blocks. -/
theorem scratch_first (c : Dev nD) (i : grid0.Coords) (a1 : Memref sig .tc .vmem S4096x128 .f32) (h1 : a1.IsWhole)
    (a2 : Memref sig .tc .vmem S128x128 .f32) (h2 : a2.IsWhole) (a3 : Memref sig .tc .vmem S512x4096 .f32) (h3 : a3.IsWhole)
    (a4 : Memref sig .tc .vmem S512x128 .f32) (h4 : a4.IsWhole) (a5 : Memref sig .tc .vmem S4096x128 .f32) (h5 : a5.IsWhole)
    (hc : cond0_0 i) (x0 : Vec F S4096x128 .f32) (x1 : Vec F S128x128 .f32) (x2 : Vec F S512x4096 .f32) :
    sout0_A_0 c i a1 h1 a2 h2 a3 h3 a4 h4 a5 h5 hc x0 x1 x2 = k0_pay1 x0 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, View.ld_unit_zero (S := S4096x128) hz,
    View.ld_unit_zero (S := S128x128) hz]

/-- First point: the output block is the masked product of the adjacency block with that projection. -/
theorem out_first (c : Dev nD) (i : grid0.Coords) (a1 : Memref sig .tc .vmem S4096x128 .f32) (h1 : a1.IsWhole)
    (a2 : Memref sig .tc .vmem S128x128 .f32) (h2 : a2.IsWhole) (a3 : Memref sig .tc .vmem S512x4096 .f32) (h3 : a3.IsWhole)
    (a4 : Memref sig .tc .vmem S512x128 .f32) (h4 : a4.IsWhole) (a5 : Memref sig .tc .vmem S4096x128 .f32) (h5 : a5.IsWhole)
    (hc : cond0_0 i) (x0 : Vec F S4096x128 .f32) (x1 : Vec F S128x128 .f32) (x2 : Vec F S512x4096 .f32) :
    out0_A_3 c i a1 h1 a2 h2 a3 h3 a4 h4 a5 h5 hc x0 x1 x2 = k0_pay2 x2 (k0_pay1 x0 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, h3.read_unread, View.ld_unit_zero (S := S4096x128) hz,
    View.ld_unit_zero (S := S128x128) hz, View.ld_unit_zero (S := S512x4096) hz,
    View.readCov_unit_zero (S := S4096x128) _ hz]

/-- Later points: the output block is the masked product of the adjacency block with the scratch as found. -/
theorem out_later (c : Dev nD) (i : grid0.Coords) (a1 : Memref sig .tc .vmem S4096x128 .f32) (h1 : a1.IsWhole)
    (a2 : Memref sig .tc .vmem S128x128 .f32) (h2 : a2.IsWhole) (a3 : Memref sig .tc .vmem S512x4096 .f32) (h3 : a3.IsWhole)
    (a4 : Memref sig .tc .vmem S512x128 .f32) (h4 : a4.IsWhole) (a5 : Memref sig .tc .vmem S4096x128 .f32) (h5 : a5.IsWhole)
    (hc : ¬cond0_0 i) (x0 : Vec F S4096x128 .f32) (x1 : Vec F S128x128 .f32) (x2 : Vec F S512x4096 .f32) (xs : Vec F S4096x128 .f32) :
    out0_B_3 c i a1 h1 a2 h2 a3 h3 a4 h4 a5 h5 hc x0 x1 x2 xs = k0_pay2 x2 xs := by
  unfold out0_B_3
  rw [View.read_writes_eq_canon _ _ _ (cover0_B_3 c i a1 h1 a2 h2 a3 h3 a4 h4 a5 h5 hc x0 x1 x2 xs)]
  unfold kernelRun0_B
  dsimp only
  rw [View.canon_unit_zero hz]
  simp only [View.readAt_eq_ld, h3.read_unread, h5.read_unread, View.ld_unit_zero (S := S4096x128) hz,
    View.ld_unit_zero (S := S512x4096) hz]

end Cert.KernelIdeal.Spmm

end
-- ==== Proof.Spec.lean ====
/-
  The function both programs compute, stated index by index over the three argument arrays, and the
  one word-level fact the two spellings of the 0/1 mask differ by.

  With x : [4096, 128], adj : [4096, 4096], w : [128, 128]:
    proj x w j c     = ∑ k, x (j, k) · w (k, c)                  (the dense projection x · w)
    spmmAt x adj w i c = ∑ j, [adj (i, j) ≠ 0] · proj x w j c        (the masked adjacency times it)
  The two sums are nested in the same order on both sides, so no law of the extended reals beyond
  reading a contraction as a sum is needed, and the finiteness of the inputs is never used.
-/
import Idealize.ShloMosaic.PureOps.Ideal
import Idealize.ShloMosaic.PureOps.Ideal.Laws
import Idealize.ShloMosaic.Lib.ValueIdx

noncomputable section

open scoped BigOperators

namespace Cert.Spmm

open Idealize.ShloMosaic Idealize.ShloMosaic.ValueIdx

abbrev Sx : Shape := ⟨2, ![4096, 128]⟩
abbrev Sadj : Shape := ⟨2, ![4096, 4096]⟩
abbrev Sw : Shape := ⟨2, ![128, 128]⟩
abbrev Sblk : Shape := ⟨2, ![512, 4096]⟩
abbrev Sout : Shape := ⟨2, ![512, 128]⟩

/-- The indicator of a nonzero entry as an extended real: 1 where a ≠ 0, else 0. -/
def ind (a : EReal) : EReal := (((Ideal.cmp .une a (Ideal.ofBits .f32 0x00000000#32)).toNat : ℝ) : EReal)

/-- The dense projection x · w at row j, column c. -/
def proj (x : Sx.Idx → EReal) (w : Sw.Idx → EReal) (j : Fin 4096) (c : Fin 128) : EReal :=
  ∑ k : Fin 128, x (ix2 j k) * w (ix2 k c)

/-- Row i, column c of the result: the sum of the projected rows j with adj (i, j) ≠ 0. -/
def spmmAt (x : Sx.Idx → EReal) (adj : Sadj.Idx → EReal) (w : Sw.Idx → EReal) (i : Fin 4096) (c : Fin 128) : EReal :=
  ∑ j : Fin 4096, ind (adj (ix2 i j)) * proj x w j c

/-- The whole result array. -/
def spmm (x : Sx.Idx → EReal) (adj : Sadj.Idx → EReal) (w : Sw.Idx → EReal) : Sx.Idx → EReal :=
  fun i => spmmAt x adj w (i 0) (i 1)

theorem spmm_apply (x : Sx.Idx → EReal) (adj : Sadj.Idx → EReal) (w : Sw.Idx → EReal) (i : Fin 4096) (c : Fin 128) :
    spmm x adj w (ix2 i c) = spmmAt x adj w i c := rfl

/-- A one-bit word widened with zeros to 32 bits and read signed is the bit read unsigned: the widened
    word is 0 or 1, below the sign bit. -/
theorem toInt_setWidth_bit (b : BitVec 1) : ((b.setWidth 32).toInt : ℝ) = (b.toNat : ℝ) := by
  have h : b = 0#1 ∨ b = 1#1 := by
    rcases Nat.lt_or_ge b.toNat 1 with h | h
    · left; exact BitVec.eq_of_toNat_eq (by simp; omega)
    · right; exact BitVec.eq_of_toNat_eq (by have := b.isLt; simp; omega)
  rcases h with rfl | rfl <;> simp

/-- The ordered and the unordered "not equal" are one comparison on the extended reals. -/
theorem cmp_one_eq_une (a b : EReal) : Ideal.cmp .one a b = Ideal.cmp .une a b := rfl

end Cert.Spmm

end
-- ==== Proof.KernelRead.lean ====
/-
  The kernel body's two stored values read at one entry, on the extended reals.

  The value stored into the scratch is a matrix product into a zero accumulator: at (j, c) it is the sum over k
  of x (j, k) · w (k, c). The value stored into the output block is a matrix product, into a zero accumulator,
  of the 0/1 mask of the adjacency block with the scratch: at (p, c) it is the sum over j of the mask at (p, j)
  times the scratch at (j, c). The mask entry is the one-bit "block (p, j) ≠ 0" widened with zeros to 32 bits
  and read signed, which is the bit read unsigned.
-/
import proofs.«110369_g36532991820137_cont_8to1_b_609_12_alg».proof.Proof.Gen.KernelIdeal.Skeleton
import proofs.«110369_g36532991820137_cont_8to1_b_609_12_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Spmm

open Cert.KernelIdeal Cert.KernelIdeal.Gen Idealize.ShloMosaic Idealize.ShloMosaic.ValueIdx Cert.Spmm

/-! ## The projection's factor indices -/

theorem projL_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem projL_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem projR_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem projR_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The value stored into the scratch, at (j, c): the projection of x by w there. -/
theorem pay1_apply (x : Vec Ideal S4096x128 .f32) (w : Vec Ideal S128x128 .f32) (j : Fin 4096) (c : Fin 128) :
    k0_pay1 (F := Ideal) x w (ix2 j c) = proj x w j c := by
  unfold k0_pay1 proj
  rw [shapeCast_self]
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 j c) ((contrEquiv1 dot_S4096x128_S128x128_S4096x128_1_0_0_1_n_n 128 rfl rfl).symm k) = ix2 j k := funext fun a => Fin.ext (by
    match a with
    | ⟨0, _⟩ => exact projL_0 _ _
    | ⟨1, _⟩ => exact (projL_1 _ _).trans hk)
  have er : dot_S4096x128_S128x128_S4096x128_1_0_0_1_n_n.rhsIdx (ix2 j c) ((contrEquiv1 dot_S4096x128_S128x128_S4096x128_1_0_0_1_n_n 128 rfl rfl).symm k) = ix2 k c := funext fun a => Fin.ext (by
    match a with
    | ⟨0, _⟩ => exact (projR_0 _ _).trans hk
    | ⟨1, _⟩ => exact projR_1 _ _)
  rw [el, er]

/-! ## The masked product's factor indices -/

theorem outL_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem outL_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem outR_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem outR_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The kernel's mask entry is the indicator of a nonzero entry. -/
theorem kmask_apply (blk : FVec Ideal S512x4096 .f32) (i : S512x4096.Idx) :
    (sitofp .f32 (extui 32 (cmpf .one blk (broadcast S512x4096 (Scalar.ofBits .f32 0x00000000#32))) Facts₀.natLt_1_32)
      : FVec Ideal S512x4096 .f32) i = ind (blk i) := by
  rw [sitofp_apply, extui_apply, cmpf_apply, broadcast_apply]
  show (((((Ideal.cmp .one (blk i) (Ideal.ofBits .f32 0x00000000#32)).setWidth 32).toInt : ℝ)) : EReal) = _
  rw [toInt_setWidth_bit, cmp_one_eq_une]
  rfl

/-- The value stored into the output block, at (p, c): the masked sum of the scratch's rows. -/
theorem pay2_apply (blk : Vec Ideal S512x4096 .f32) (s : Vec Ideal S4096x128 .f32) (p : Fin 512) (c : Fin 128) :
    k0_pay2 (F := Ideal) blk s (ix2 p c) = ∑ j : Fin 4096, ind (blk (ix2 p j)) * s (ix2 j c) := by
  unfold k0_pay2
  simp only [matmul]
  rw [Ideal.matmul_constant_zero_apply, ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p c) ((contrEquiv1 dot_S512x4096_S4096x128_S512x128_1_0_0_1_n_n 4096 rfl rfl).symm k) = ix2 p k := funext fun a => Fin.ext (by
    match a with
    | ⟨0, _⟩ => exact outL_0 _ _
    | ⟨1, _⟩ => exact (outL_1 _ _).trans hk)
  have er : dot_S512x4096_S4096x128_S512x128_1_0_0_1_n_n.rhsIdx (ix2 p c) ((contrEquiv1 dot_S512x4096_S4096x128_S512x128_1_0_0_1_n_n 4096 rfl rfl).symm k) = ix2 k c := funext fun a => Fin.ext (by
    match a with
    | ⟨0, _⟩ => exact (outR_0 _ _).trans hk
    | ⟨1, _⟩ => exact outR_1 _ _)
  rw [el, er]
  exact congrArg (· * s (ix2 k c)) (kmask_apply blk (ix2 p k))

/-- The projection depends on its two factors only through their entries. -/
theorem proj_congr (X x : Sx.Idx → EReal) (W w : Sw.Idx → EReal) (j : Fin 4096) (c : Fin 128)
    (hx : ∀ k : Fin 128, x (ix2 j k) = X (ix2 j k)) (hw : ∀ k : Fin 128, w (ix2 k c) = W (ix2 k c)) :
    proj x w j c = proj X W j c := by
  unfold proj
  exact Finset.sum_congr rfl fun k _ => by rw [hx k, hw k]

/-- The stored output block at (p, c) is the specification at (r, c), as soon as row p of the adjacency block is
    row r of the adjacency array and column c of the scratch is column c of the projection. -/
theorem pay2_spmm (X : Sx.Idx → EReal) (A : Sadj.Idx → EReal) (W : Sw.Idx → EReal)
    (blk : Vec Ideal S512x4096 .f32) (s : Vec Ideal S4096x128 .f32) (r : Fin 4096) (p : Fin 512) (c : Fin 128)
    (hb : ∀ j : Fin 4096, blk (ix2 p j) = A (ix2 r j)) (hs : ∀ j : Fin 4096, s (ix2 j c) = proj X W j c) :
    k0_pay2 (F := Ideal) blk s (ix2 p c) = spmmAt X A W r c := by
  rw [pay2_apply]
  unfold spmmAt
  exact Finset.sum_congr rfl fun j _ => by rw [hb j, hs j]

end Cert.KernelIdeal.Spmm

end
-- ==== Proof.KernelValue.lean ====
/-
  The kernel's result array on the extended reals.

  The grid has eight points; point t fetches rows 512·t … 512·t + 511 of the adjacency array and writes back the
  same rows of the result. The two small inputs are fetched whole at every point. The scratch is stored once, at
  point 0, with the projection x · w, and is only read afterwards: by induction on the point it holds the
  projection after every point. So the block point t writes back is, at (p, c), the masked sum of the projection's
  rows with the mask taken from row 512·t + p of the adjacency array: block t of the specification. The eight
  blocks tile the result array, which therefore ends holding the specification.
-/
import proofs.«110369_g36532991820137_cont_8to1_b_609_12_alg».proof.Proof.Pieces
import proofs.«110369_g36532991820137_cont_8to1_b_609_12_alg».proof.Proof.KernelRead

noncomputable section

open scoped BigOperators

namespace Cert.KernelIdeal.Spmm

open Cert.KernelIdeal Cert.KernelIdeal.Gen Idealize.ShloMosaic Idealize.ShloMosaic.TcCoe Idealize.SL.Sem
open Idealize.ShloMosaic.ValueIdx Cert.Spmm
open Idealize.ShloMosaic.Pipeline (Dat)

variable (m : (ℓ : Loc nD τ sig) → Buf (Elt Ideal) ℓ) (ρ : Dev nD → PrngReg)

/-- The three argument arrays as the region finds them, and each window's block at a point, at their literal types. -/
abbrev xarr (c : Dev nD) : Vec Ideal S4096x128 .f32 := V m c main_arg0
abbrev aarr (c : Dev nD) : Vec Ideal S4096x4096 .f32 := V m c main_arg1
abbrev warr (c : Dev nD) : Vec Ideal S128x128 .f32 := V m c main_arg2
abbrev xblk (c : Dev nD) (t : Fin cfg0.N) : Vec Ideal S4096x128 .f32 := iblk m c 0 t
abbrev wblk (c : Dev nD) (t : Fin cfg0.N) : Vec Ideal S128x128 .f32 := iblk m c 1 t
abbrev ablk (c : Dev nD) (t : Fin cfg0.N) : Vec Ideal S512x4096 .f32 := iblk m c 2 t

theorem hN : cfg0.N = 8 := N_0

/-- The printed index maps, decided over the grid: the two small inputs sit at block (0, 0) at every point; the
    adjacency and the result move down one row block per point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The x block at any point is the whole x array. -/
theorem xblk_apply (c : Dev nD) (t : Fin cfg0.N) (j : Fin 4096) (k : Fin 128) :
    xblk m c t (ix2 j k) = xarr m c (ix2 j k) := by
  obtain ⟨e0, e1, -⟩ := idx_facts t
  show V m c main_arg0 (((cfg0.win 0).blk t).view.emb (ix2 j k)) = V m c main_arg0 (ix2 j k)
  refine congrArg (V m c main_arg0) (funext fun a => Fin.ext ?_)
  match a with
  | ⟨0, _⟩ => show win0_0.index t (0 : Fin 2) * 4096 + 1 * j.val = j.val; omega
  | ⟨1, _⟩ => show win0_0.index t (1 : Fin 2) * 128 + 1 * k.val = k.val; omega

/-- The w block at any point is the whole w array. -/
theorem wblk_apply (c : Dev nD) (t : Fin cfg0.N) (k : Fin 128) (q : Fin 128) :
    wblk m c t (ix2 k q) = warr m c (ix2 k q) := by
  obtain ⟨-, -, e0, e1, -⟩ := idx_facts t
  show V m c main_arg2 (((cfg0.win 1).blk t).view.emb (ix2 k q)) = V m c main_arg2 (ix2 k q)
  refine congrArg (V m c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Row 512·t + p of the array, as an index. -/
def row (t : Fin cfg0.N) (p : Fin 512) : Fin 4096 := ⟨512 * t.val + p.val, by have := t.isLt; have := hN; omega⟩

/-- Row p of the adjacency block at point t is row 512·t + p of the adjacency array. -/
theorem ablk_apply (c : Dev nD) (t : Fin cfg0.N) (p : Fin 512) (j : Fin 4096) :
    ablk m c t (ix2 p j) = aarr m c (ix2 (row t p) j) := by
  obtain ⟨-, -, -, -, e0, e1, -⟩ := idx_facts t
  show V m c main_arg1 (((cfg0.win 2).blk t).view.emb (ix2 p j)) = V m c main_arg1 (ix2 (row t p) j)
  refine congrArg (V m c main_arg1) (funext fun a => Fin.ext ?_)
  match a with
  | ⟨0, _⟩ => show win0_2.index t (0 : Fin 2) * 512 + 1 * p.val = 512 * t.val + p.val; omega
  | ⟨1, _⟩ => show win0_2.index t (1 : Fin 2) * 4096 + 1 * j.val = j.val; omega

/-- The projection of the blocks at any point is the projection of the arrays. -/
theorem proj_blk (c : Dev nD) (t : Fin cfg0.N) (j : Fin 4096) (q : Fin 128) :
    proj (xblk m c t) (wblk m c t) j q = proj (xarr m c) (warr m c) j q :=
  proj_congr (xarr m c) (xblk m c t) (warr m c) (wblk m c t) j q (fun k => xblk_apply m c t j k) (fun k => wblk_apply m c t k q)

/-- THE SCRATCH after every point holds the projection x · w: stored at point 0, kept afterwards. -/
theorem scratch_apply (c : Dev nD) : ∀ (n : ℕ) (hn : n < cfg0.N) (j : Fin 4096) (q : Fin 128),
    (outsAt0 m c n hn).2 (ix2 j q) = proj (xarr m c) (warr m c) j q
  | 0, hn, j, q => by
    rw [show outsAt0 m c 0 hn = _ from outsAt0_A m c ⟨0, hn⟩ rfl]
    dsimp only
    refine (congrFun (scratch_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr rfl) (xblk m c ⟨0, hn⟩) (wblk m c ⟨0, hn⟩) (ablk m c ⟨0, hn⟩)) (ix2 j q)).trans ?_
    exact (pay1_apply (xblk m c ⟨0, hn⟩) (wblk m c ⟨0, hn⟩) j q).trans (proj_blk m c ⟨0, hn⟩ j q)
  | n + 1, hn, j, q => by
    have hB : ¬(⟨n + 1, hn⟩ : Fin cfg0.N).val % 8 = 0 := by have := hN; dsimp only; omega
    rw [show outsAt0 m c (n + 1) hn = _ from outsAt0_B m c ⟨n + 1, hn⟩ hB]
    dsimp only
    unfold sout0_B_0
    exact scratch_apply c n _ j q

/-- THE OUTPUT BLOCK after point t, at (p, q), is the specification at row 512·t + p. -/
theorem out_apply (c : Dev nD) (t : Fin cfg0.N) (p : Fin 512) (q : Fin 128) :
    (outsAt0 m c t.val t.isLt).1 (ix2 p q) = spmmAt (xarr m c) (aarr m c) (warr m c) (row t p) q := by
  by_cases h0 : t.val % 8 = 0
  · rw [outsAt0_A m c t h0]
    dsimp only
    refine (congrFun (out_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (wblk m c t) (ablk m c t)) (ix2 p q)).trans ?_
    exact pay2_spmm (xarr m c) (aarr m c) (warr m c) (ablk m c t) (k0_pay1 (xblk m c t) (wblk m c t)) (row t p) p q
      (fun j => ablk_apply m c t p j)
      (fun j => (pay1_apply (xblk m c t) (wblk m c t) j q).trans (proj_blk m c t j q))
  · rw [outsAt0_B m c t h0]
    dsimp only
    refine (congrFun (out_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (xblk m c t) (wblk m c t) (ablk m c t) (outsAt0 m c (t.val - 1) (Nat.lt_of_le_of_lt (Nat.sub_le _ _) t.isLt)).2) (ix2 p q)).trans ?_
    exact pay2_spmm (xarr m c) (aarr m c) (warr m c) (ablk m c t) (outsAt0 m c (t.val - 1) (Nat.lt_of_le_of_lt (Nat.sub_le _ _) t.isLt)).2 (row t p) p q
      (fun j => ablk_apply m c t p j)
      (fun j => scratch_apply m c (t.val - 1) _ j q)

/-- WHAT POINT t WRITES BACK is block t of the specification of the argument arrays. -/
theorem flushed_eq (c : Dev nD) (t : Fin cfg0.N) :
    (dats m 0 c).flushed 3 t = ((cfg0.win 3).blk t).view.read (Elt Ideal) (spmm (xarr m c) (aarr m c) (warr m c)) := by
  rw [Value.flushed3]
  obtain ⟨-, -, -, -, -, -, e0, e1⟩ := idx_facts t
  funext y
  obtain ⟨p, q, rfl⟩ : ∃ (p : Fin 512) (q : Fin 128), y = ix2 p q := ⟨y 0, y 1, eq_ix2 y⟩
  show (outsAt0 m c t.val t.isLt).1 (ix2 p q) = spmm (xarr m c) (aarr m c) (warr m c) (((cfg0.win 3).blk t).view.emb (ix2 p q))
  have he : ((cfg0.win 3).blk t).view.emb (ix2 p q) = ix2 (row t p) q := by
    funext a; apply Fin.ext
    match a with
    | ⟨0, _⟩ => show win0_3.index t (0 : Fin 2) * 512 + 1 * p.val = 512 * t.val + p.val; omega
    | ⟨1, _⟩ => show win0_3.index t (1 : Fin 2) * 128 + 1 * q.val = q.val; omega
  rw [he, spmm_apply]
  exact out_apply m c t p q

/-- An index of the result array is in point t's block iff each coordinate is in the block's range on its axis. -/
theorem mem_blk (t : Fin cfg0.N) (i : S4096x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v0).slice (win0_3.rect t)).set ↔ _
  rw [View.set_slice_whole, Rect.mem_set_unit]
  exact Iff.rfl

/-- The eight row blocks tile the result array: row r lies in the block of point r / 512. -/
theorem cover (i : S4096x128.Idx) : ∃ t : Fin cfg0.N, (cfg0.win 3).flush t = true ∧ i ∈ ((cfg0.win 3).blk t).view.set := by
  have hi0 : (i 0).val < 4096 := (i 0).isLt
  have hi1 : (i 1).val < 128 := (i 1).isLt
  refine ⟨⟨(i 0).val / 512, by have := hN; omega⟩, flush0_3 _, ?_⟩
  obtain ⟨-, -, -, -, -, -, e0, e1⟩ := idx_facts ⟨(i 0).val / 512, by have := hN; omega⟩
  rw [mem_blk]
  intro a
  match a with
  | ⟨0, _⟩ => show win0_3.index _ (0 : Fin 2) * 512 ≤ (i 0).val ∧ (i 0).val < win0_3.index _ (0 : Fin 2) * 512 + 512; dsimp only at e0; omega
  | ⟨1, _⟩ => show win0_3.index _ (1 : Fin 2) * 128 ≤ (i 1).val ∧ (i 1).val < win0_3.index _ (1 : Fin 2) * 128 + 128; omega

/-- THE RESULT ARRAY after the run is the specification of the argument arrays. -/
theorem final (c : Dev nD) : (dats m 0 c).arrAt 3 cfg0.N = spmm (m ((c : Thread nD τ).loc main_arg0)) (m ((c : Thread nD τ).loc main_arg1)) (m ((c : Thread nD τ).loc main_arg2)) :=
  (dats m 0 c).arrAt_eq_of_cover 3 (spmm (xarr m c) (aarr m c) (warr m c)) (fun t _ => flushed_eq m c t) cover

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v0) = spmm (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Spmm

end
-- ==== Proof.RefSpec.lean ====
/-
  The reference computes the specification: its last matrix product, read at row i and column c, is the sum over
  j of the 0/1 mask entry at (i, j) times the first product at (j, c), and that first product at (j, c) is the sum
  over k of x (j, k) · w (k, c). The mask entry is the unsigned reading of the one-bit "adj (i, j) ≠ 0".
-/
import proofs.«110369_g36532991820137_cont_8to1_b_609_12_alg».proof.Proof.Gen.ReferenceIdeal.Read
import proofs.«110369_g36532991820137_cont_8to1_b_609_12_alg».proof.Proof.Spec

noncomputable section

open scoped BigOperators

namespace Cert.ReferenceIdeal.Spmm

open Cert.ReferenceIdeal Cert.ReferenceIdeal.Read Idealize.ShloMosaic Idealize.ShloMosaic.ValueIdx Cert.Spmm

/-- The second product's factors at (i, c) and contraction coordinate j sit at (i, j) and (j, c). -/
theorem lidx_v4 (i : Fin 4096) (c : Fin 128) (j : Fin 4096) : lidx_main_v4 (ix2 i c) j = ix2 i j :=
  funext fun a => by match a with | ⟨0, _⟩ => rfl | ⟨1, _⟩ => rfl
theorem ridx_v4 (i : Fin 4096) (c : Fin 128) (j : Fin 4096) : ridx_main_v4 (ix2 i c) j = ix2 j c :=
  funext fun a => by match a with | ⟨0, _⟩ => rfl | ⟨1, _⟩ => rfl

/-- The first product's factors at (j, c) and contraction coordinate k sit at (j, k) and (k, c). -/
theorem lidx_v0 (j : Fin 4096) (c : Fin 128) (k : Fin 128) : lidx_main_v0 (ix2 j c) k = ix2 j k :=
  funext fun a => by match a with | ⟨0, _⟩ => rfl | ⟨1, _⟩ => rfl
theorem ridx_v0 (j : Fin 4096) (c : Fin 128) (k : Fin 128) : ridx_main_v0 (ix2 j c) k = ix2 k c :=
  funext fun a => by match a with | ⟨0, _⟩ => rfl | ⟨1, _⟩ => rfl

/-- The converted comparison at an entry is the indicator of a nonzero entry. -/
theorem mask_apply (adj : (⟨S4096x4096, .f32⟩ : BufTy).Contents (Elt Ideal)) (i : S4096x4096.Idx) :
    val_main_v3 (F := Ideal) adj i = ind (adj i) := by
  rw [val_main_v3_apply, val_main_v2_apply, val_main_v1_apply, val_main_cst_apply]
  rfl

/-- The first product at (j, c) is the specification's projection there. -/
theorem proj_apply (x : (⟨S4096x128, .f32⟩ : BufTy).Contents (Elt Ideal)) (w : (⟨S128x128, .f32⟩ : BufTy).Contents (Elt Ideal))
    (j : Fin 4096) (c : Fin 128) :
    val_main_v0 (F := Ideal) x w (ix2 j c) = proj x w j c := by
  rw [val_main_v0_apply]
  unfold proj
  exact Finset.sum_congr rfl fun k _ =>
    congrArg₂ (· * ·) (congrArg x (lidx_v0 j c k)) (congrArg w (ridx_v0 j c k))

/-- The reference's result is the specification, entry by entry. -/
theorem result_eq (x : (⟨S4096x128, .f32⟩ : BufTy).Contents (Elt Ideal)) (adj : (⟨S4096x4096, .f32⟩ : BufTy).Contents (Elt Ideal))
    (w : (⟨S128x128, .f32⟩ : BufTy).Contents (Elt Ideal)) :
    val_main_v4 (F := Ideal) x adj w = spmm x adj w := by
  funext i
  obtain ⟨p, q, rfl⟩ : ∃ (p : Fin 4096) (q : Fin 128), i = ix2 p q := ⟨i 0, i 1, eq_ix2 i⟩
  rw [val_main_v4_apply, spmm_apply]
  unfold spmmAt
  exact Finset.sum_congr rfl fun j _ =>
    congrArg₂ (· * ·)
      ((congrArg (val_main_v3 (F := Ideal) adj) (lidx_v4 p q j)).trans (mask_apply adj _))
      ((congrArg (val_main_v0 (F := Ideal) x w) (ridx_v4 p q j)).trans (proj_apply x w j q))

end Cert.ReferenceIdeal.Spmm

end
-- ==== Proof.lean ====
/-
  The certificate of the masked adjacency product: out = [adj ≠ 0] · (x · w), with x : [4096, 128],
  adj : [4096, 4096], w : [128, 128].

  The kernel walks eight row blocks of adj. At the first block it computes the projection x · w once into a
  scratch that it keeps for the rest of the walk; at every block it multiplies the 0/1 mask of the block with the
  scratch and writes the 512 result rows back. The reference forms x · w, the mask of the whole of adj, and their
  product. Both nest the two sums the same way,
      out (i, c) = ∑ j, [adj (i, j) ≠ 0] · ∑ k, x (j, k) · w (k, c),
  so on the extended reals the results agree entry by entry with no rearrangement and without using that the
  inputs are finite. The only word-level difference is the mask's spelling: a one-bit comparison widened to 32 bits
  and read signed in the kernel, the same bit read unsigned in the reference; both are 0 or 1.

  The three frames are the generated runs. The idealization rewrote nothing, so its conjunct is trivial.
-/
import proofs.«110369_g36532991820137_cont_8to1_b_609_12_alg».proof.Defs
import proofs.«110369_g36532991820137_cont_8to1_b_609_12_alg».proof.Proof.Gen.Kernel
import proofs.«110369_g36532991820137_cont_8to1_b_609_12_alg».proof.Proof.Gen.Kernel.Skeleton
import proofs.«110369_g36532991820137_cont_8to1_b_609_12_alg».proof.Proof.Gen.Kernel.Launch
import proofs.«110369_g36532991820137_cont_8to1_b_609_12_alg».proof.Proof.Gen.Kernel.Points
import proofs.«110369_g36532991820137_cont_8to1_b_609_12_alg».proof.Proof.Gen.Kernel.Frame
import proofs.«110369_g36532991820137_cont_8to1_b_609_12_alg».proof.Proof.Gen.KernelIdeal
import proofs.«110369_g36532991820137_cont_8to1_b_609_12_alg».proof.Proof.Gen.KernelIdeal.Skeleton
import proofs.«110369_g36532991820137_cont_8to1_b_609_12_alg».proof.Proof.Gen.KernelIdeal.Launch
import proofs.«110369_g36532991820137_cont_8to1_b_609_12_alg».proof.Proof.Gen.KernelIdeal.Points
import proofs.«110369_g36532991820137_cont_8to1_b_609_12_alg».proof.Proof.Gen.KernelIdeal.Frame
import proofs.«110369_g36532991820137_cont_8to1_b_609_12_alg».proof.Proof.Gen.ReferenceIdeal
import proofs.«110369_g36532991820137_cont_8to1_b_609_12_alg».proof.Proof.Gen.Pre_finite_inputs
import proofs.«110369_g36532991820137_cont_8to1_b_609_12_alg».proof.Proof.Gen.KernelIdeal.Value
import proofs.«110369_g36532991820137_cont_8to1_b_609_12_alg».proof.Proof.Gen.ReferenceIdeal.Run
import proofs.«110369_g36532991820137_cont_8to1_b_609_12_alg».proof.Proof.Gen.ReferenceIdeal.Read
import proofs.«110369_g36532991820137_cont_8to1_b_609_12_alg».proof.Proof.KernelValue
import proofs.«110369_g36532991820137_cont_8to1_b_609_12_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specification of the shared arguments in their result arrays. -/
theorem algebraic : Cert.algebraic_KernelIdeal_ReferenceIdeal := by
  intro m ρ m' ρ' _ hagree
  refine ⟨_, Cert.KernelIdeal.Spmm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Spmm.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
